-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S100000x512 .f32) (main_arg1 : IVec S100000 32) (main_arg2 : FVec F S512x512 .f32) (main_arg3 : FVec F S512 .f32) (main_arg4 : FVec F S512x512 .f32) (main_arg5 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_v13 main_v16
-- ==== Kernel.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S100000x1 : Shape := ⟨2, ![100000, 1]⟩
abbrev S1x512 : Shape := ⟨2, ![1, 512]⟩
abbrev S2x1024x512 : Shape := ⟨3, ![2, 1024, 512]⟩
abbrev S1000x512 : Shape := ⟨2, ![1000, 512]⟩
abbrev S1000x1 : Shape := ⟨2, ![1000, 1]⟩
abbrev S1x1024x512 : Shape := ⟨3, ![1, 1024, 512]⟩
abbrev S1024x512 : Shape := ⟨2, ![1024, 512]⟩
abbrev S1000x1024 : Shape := ⟨2, ![1000, 1024]⟩

abbrev nBuf : Space → Nat
  | .hbm => 16
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S100000x1, .i32⟩
  | .hbm, ⟨7, _⟩ => ⟨S1x512, .f32⟩
  | .hbm, ⟨8, _⟩ => ⟨S1x512, .f32⟩
  | .hbm, ⟨9, _⟩ => ⟨S2x1024x512, .f32⟩
  | .hbm, ⟨10, _⟩ => ⟨S1x1024x512, .f32⟩
  | .hbm, ⟨11, _⟩ => ⟨S1024x512, .f32⟩
  | .hbm, ⟨12, _⟩ => ⟨S1x1024x512, .f32⟩
  | .hbm, ⟨13, _⟩ => ⟨S1024x512, .f32⟩
  | .hbm, ⟨14, _⟩ => ⟨S1024x512, .f32⟩
  | .hbm, ⟨15, _⟩ => ⟨S1000x512, .f32⟩
  | .local _ .vmem, ⟨0, _⟩ => ⟨S1000x512, .f32⟩
  | .local _ .vmem, ⟨1, _⟩ => ⟨S1000x512, .f32⟩
  | .local _ .vmem, ⟨2, _⟩ => ⟨S1000x1, .i32⟩
  | .local _ .vmem, ⟨3, _⟩ => ⟨S1000x1, .i32⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S1x512, .f32⟩
  | .local _ .vmem, ⟨8, _⟩ => ⟨S1x1024x512, .f32⟩
  | .local _ .vmem, ⟨9, _⟩ => ⟨S1x1024x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S100000_S100000x1 : S100000.ShapeCasts S100000x1
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1024_d1_w32 : S1000x1024.Iotas .tc 32 [1]
  broadcasts_S1000x1_S1000x1024 : S1000x1.Broadcasts S1000x1024
  natLt_1_32 : 1 < 32
  slices_S2x1024x512_S1x1024x512_0_0_0 : S2x1024x512.Slices ![0, 0, 0] S1x1024x512
  slices_S2x1024x512_S1x1024x512_1_0_0 : S2x1024x512.Slices ![1, 0, 0] S1x1024x512
  slices_S1024x512_S1000x512_0_0 : S1024x512.Slices ![0, 0] S1000x512
  dot_S1000x512_S512x512_S1000x512_1_0_0_1_n_n_wf : DotDims.WF S1000x512 S512x512 S1000x512 [1] [0] [0] [1] [] []
  dot_S1000x1024_S1000x512_S1024x512_0_0_1_1_n_n_wf : DotDims.WF S1000x1024 S1000x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S100000x1.size a
  hwx0_1 : ∀ i : grid0.Coords, EltTy.bits .i32 = 32 ∨ (Rect.block (s := S100000x1) S1000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S2x1024x512.size a
  hwx0_6 : ∀ i : grid0.Coords, EltTy.bits .f32 = 32 ∨ (Rect.block (s := S2x1024x512) S1x1024x512.size (cc0_transform_6 i) (hinb0_6 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x1024_S1000x512_S1024x512_0_0_1_1_n_n : DotDims S1000x1024 S1000x512 S1024x512 where
  lhsContracting := [0]
  rhsContracting := [0]
  lhsNonContracting := [1]
  rhsNonContracting := [1]
  lhsBatch := []
  rhsBatch := []
  wf := dot_S1000x1024_S1000x512_S1024x512_0_0_1_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1x512 : Shape := ⟨2, ![1, 512]⟩
abbrev S_ : Shape := ⟨0, ![]⟩
abbrev S1000x512 : Shape := ⟨2, ![1000, 512]⟩
abbrev S100000x1 : Shape := ⟨2, ![100000, 1]⟩

abbrev nBuf : Space → Nat
  | .hbm => 27
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S100000x512, .f32⟩
  | .hbm, ⟨7, _⟩ => ⟨S1x512, .f32⟩
  | .hbm, ⟨8, _⟩ => ⟨S100000x512, .f32⟩
  | .hbm, ⟨9, _⟩ => ⟨S100000x512, .f32⟩
  | .hbm, ⟨10, _⟩ => ⟨S100000x512, .f32⟩
  | .hbm, ⟨11, _⟩ => ⟨S1x512, .f32⟩
  | .hbm, ⟨12, _⟩ => ⟨S100000x512, .f32⟩
  | .hbm, ⟨13, _⟩ => ⟨S100000x512, .f32⟩
  | .hbm, ⟨14, _⟩ => ⟨S100000x512, .f32⟩
  | .hbm, ⟨15, _⟩ => ⟨S100000x512, .f32⟩
  | .hbm, ⟨16, _⟩ => ⟨S_, .f32⟩
  | .hbm, ⟨17, _⟩ => ⟨S100000x512, .f32⟩
  | .hbm, ⟨18, _⟩ => ⟨S100000x512, .f32⟩
  | .hbm, ⟨19, _⟩ => ⟨S_, .f32⟩
  | .hbm, ⟨20, _⟩ => ⟨S100000x512, .f32⟩
  | .hbm, ⟨21, _⟩ => ⟨S100000x512, .f32⟩
  | .hbm, ⟨22, _⟩ => ⟨S100000x512, .f32⟩
  | .hbm, ⟨23, _⟩ => ⟨S_, .f32⟩
  | .hbm, ⟨24, _⟩ => ⟨S1000x512, .f32⟩
  | .hbm, ⟨25, _⟩ => ⟨S100000x1, .i32⟩
  | .hbm, ⟨26, _⟩ => ⟨S1000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S_S1000x512 : S_.BroadcastsInDim S1000x512 (![] : Fin 0 → Fin S1000x512.rank)
  bcast_S100000_S100000x1_0 : S100000.BroadcastsInDim S100000x1 (![0] : Fin 1 → Fin S100000x1.rank)
  dot_S100000x512_S512x512_S100000x512_1_0_0_1_n_n_wf : DotDims.WF S100000x512 S512x512 S100000x512 [1] [0] [0] [1] [] []
  scatter_S1000x512_S100000x1_S100000x512_1_0_0_1_wf : ScatterDims.WF S1000x512 S100000x1 S100000x512 [1] [0] [0] 1

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def scatter_S1000x512_S100000x1_S100000x512_1_0_0_1 : ScatterDims S1000x512 S100000x1 S100000x512 where
  updateWindowDims := [1]
  insertedWindowDims := [0]
  scatterDimsToOperandDims := [0]
  indexVectorDim := 1
  wf := scatter_S1000x512_S100000x1_S100000x512_1_0_0_1_wf

class Facts : Prop extends Facts₀ where

variable [Facts]
-- ==== Proof.LibScatterRows.lean ====
import Idealize.ShloMosaic.PureOps.Ideal
import Idealize.ShloMosaic.Lib.ValueIdx
import Idealize.ShloMosaic.Lib.ValueIdxRank1
import Mathlib.Algebra.BigOperators.Group.Finset.Basic
import Mathlib.Algebra.BigOperators.Group.Finset.Piecewise

noncomputable section

open scoped BigOperators

namespace Idealize.ShloMosaic.ScatterRows

open Idealize.ShloMosaic Idealize.ShloMosaic.ValueIdx

/-! ## Small facts about lists of axes -/

/-- Every entry of a one-element list is that list's element. -/
theorem getElem_of_eq_singleton {α : Type} {L : List α} {x : α} (hL : L = [x]) (k : Nat) (hk : k < L.length) :
    L[k] = x := by
  subst hL
  have hk' : k = 0 := by simpa using hk
  subst hk'
  rfl

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Of two axes, the one that is not axis 1 is axis 0. -/
theorem fin2_eq_zero : ∀ g : Fin 2, g ∉ ([1] : List (Fin 2)) → g = 0 := by decide
/-- Axis 1 is not axis 0. -/
theorem fin2_one_not_mem : (1 : Fin 2) ∉ ([0] : List (Fin 2)) := by decide

/-! ## Rank 1: operand [N], scatter indices [M × 1], updates [M] -/

section Rows1
variable {N M w : Nat} (d : ScatterDims ⟨1, ![N]⟩ ⟨2, ![M, 1]⟩ ⟨1, ![M]⟩)

/-- The start on the operand's one axis is update [j]'s scatter index [j, 0], read signed. -/
theorem start_rows1 (hsd : d.scatterDimsToOperandDims = [0]) (hiv : d.indexVectorDim = 1)
    (idx : IVec ⟨2, ![M, 1]⟩ w) (j : (⟨1, ![M]⟩ : Shape).Idx) :
    d.start j idx 0 = (idx (ix2 (j 0) (0 : Fin 1))).toInt := by
  have h0 : (0 : Fin 1) ∈ d.scatterDimsToOperandDims := by rw [hsd]; exact List.mem_singleton.mpr rfl
  unfold ScatterDims.start
  rw [dif_pos h0]
  congr 2
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show List.idxOf (0 : Fin 1) d.scatterDimsToOperandDims = 0
    rw [hsd]; simp

/-- The operand's one axis is an inserted window axis: its window coordinate is 0. -/
theorem window_rows1 (hiw : d.insertedWindowDims = [0]) (j : (⟨1, ![M]⟩ : Shape).Idx) : d.window j 0 = 0 := by
  have hk : (0 : Fin 1) ∉ d.sKept := fun h =>
    (mem_kept _ _).mp h (by rw [hiw]; exact List.mem_singleton.mpr rfl)
  unfold ScatterDims.window
  rw [dif_neg hk]

/-- Update [j] lands on operand element [i] exactly when its scatter index, read signed, is i. -/
theorem resultIdx?_rows1 (hiw : d.insertedWindowDims = [0])
    (hsd : d.scatterDimsToOperandDims = [0]) (hiv : d.indexVectorDim = 1)
    (idx : IVec ⟨2, ![M, 1]⟩ w) (j : (⟨1, ![M]⟩ : Shape).Idx) (i : Fin N) :
    d.resultIdx? j idx = some (ix1 i) ↔ (idx (ix2 (j 0) (0 : Fin 1))).toInt = (i.val : Int) := by
  have hs := start_rows1 d hsd hiv idx j
  have hw := window_rows1 d hiw j
  unfold ScatterDims.resultIdx?
  split
  · next h =>
    have h0 := h 0
    rw [hs, hw] at h0
    constructor
    · intro he
      have he0 : (d.start j idx 0 + (d.window j 0 : Nat)).toNat = i.val :=
        congrArg (fun g : (⟨1, ![N]⟩ : Shape).Idx => (g 0).val) (Option.some.inj he)
      rw [hs, hw] at he0
      omega
    · intro he
      refine congrArg some (funext fun a => ?_)
      obtain rfl : a = 0 := Subsingleton.elim _ _
      apply Fin.ext
      show (d.start j idx 0 + (d.window j 0 : Nat)).toNat = i.val
      rw [hs, hw]; omega
  · next h =>
    constructor
    · intro he; exact absurd he (by simp)
    · intro he
      exfalso; apply h
      intro a
      obtain rfl : a = 0 := Subsingleton.elim _ _
      rw [hs, hw, he]
      have := i.isLt
      show (0 : Int) ≤ (i.val : Int) + ((0 : Nat) : Int) ∧ (i.val : Int) + ((0 : Nat) : Int) < ((N : Nat) : Int)
      omega

end Rows1

/-- THE ROW SCATTER OF SCALARS. The accumulating scatter of an [M] vector of updates into an [N] operand, update [j]
    going to the element named by scatter index [j, 0] (the operand's one axis inserted and start-indexed, no window
    axes, the index vector on axis 1), read at element i: the operand's element plus the sum of the updates whose
    scatter index, read signed, is i. An index outside [0, N) is no element's, so its update is dropped. -/
theorem hostScatterAdd_rows1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Ideal.hostScatterAdd d x idx upd (ix1 i)
      = x (ix1 i) + ∑ j : Fin M, if (idx (ix2 j (0 : Fin 1))).toInt = (i.val : Int) then upd (ix1 j) else 0 := by
  unfold Ideal.hostScatterAdd
  congr 1
  rw [Finset.sum_filter, ← Equiv.sum_comp (idxEquiv1 (n := M)).symm]
  refine Finset.sum_congr rfl fun j _ => ?_
  exact if_congr (resultIdx?_rows1 d hiw hsd hiv idx (ix1 j) i) rfl rfl

/-! ## Rank 2: operand [N × H], scatter indices [M × 1], updates [M × H] -/

section Rows2
variable {N H M w : Nat} (d : ScatterDims ⟨2, ![N, H]⟩ ⟨2, ![M, 1]⟩ ⟨2, ![M, H]⟩)

/-- The start on the operand's row axis is update row j's scatter index [j, 0], read signed. -/
theorem start0_rows2 (huw : d.updateWindowDims = [1]) (hsd : d.scatterDimsToOperandDims = [0]) (hiv : d.indexVectorDim = 1)
    (idx : IVec ⟨2, ![M, 1]⟩ w) (j : (⟨2, ![M, H]⟩ : Shape).Idx) :
    d.start j idx 0 = (idx (ix2 (j 0) (0 : Fin 1))).toInt := by
  have h0 : (0 : Fin 2) ∈ d.scatterDimsToOperandDims := by rw [hsd]; exact List.mem_singleton.mpr rfl
  have hus : ∀ (k : Nat) (hk : k < d.uScatter.length), d.uScatter[k] = 0 := fun k hk => by
    have hm : d.uScatter[k] ∈ d.uScatter := List.getElem_mem hk
    have hg : d.uScatter[k] ∉ d.updateWindowDims := (mem_kept _ _).mp hm
    rw [huw] at hg
    exact fin2_eq_zero _ hg
  unfold ScatterDims.start
  rw [dif_pos h0]
  congr 2
  funext b
  match b with
  | ⟨0, _⟩ =>
    unfold ScatterDims.siIdx
    rw [dif_neg (by rw [hiv]; simp)]
    unfold ScatterDims.siCoord
    apply Fin.ext
    simp only [Fin.val_cast]
    exact congrArg (fun a => (j a).val) (hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not start-indexed: its start is 0. -/
theorem start1_rows2 (hsd : d.scatterDimsToOperandDims = [0])
    (idx : IVec ⟨2, ![M, 1]⟩ w) (j : (⟨2, ![M, H]⟩ : Shape).Idx) : d.start j idx 1 = 0 := by
  have h1 : (1 : Fin 2) ∉ d.scatterDimsToOperandDims := by rw [hsd]; exact fin2_one_not_mem
  unfold ScatterDims.start
  rw [dif_neg h1]

/-- The row axis is an inserted window axis: its window coordinate is 0. -/
theorem window0_rows2 (hiw : d.insertedWindowDims = [0]) (j : (⟨2, ![M, H]⟩ : Shape).Idx) : d.window j 0 = 0 := by
  have hk : (0 : Fin 2) ∉ d.sKept := fun h =>
    (mem_kept _ _).mp h (by rw [hiw]; exact List.mem_singleton.mpr rfl)
  unfold ScatterDims.window
  rw [dif_neg hk]

/-- The column axis is the one window axis: its window coordinate is the update's column. -/
theorem window1_rows2 (huw : d.updateWindowDims = [1]) (hiw : d.insertedWindowDims = [0])
    (j : (⟨2, ![M, H]⟩ : Shape).Idx) : d.window j 1 = (j 1).val := by
  have hk : (1 : Fin 2) ∈ d.sKept := (mem_kept _ _).mpr (by rw [hiw]; exact fin2_one_not_mem)
  unfold ScatterDims.window
  rw [dif_pos hk]
  exact congrArg (fun a => (j a).val) (getElem_of_eq_singleton huw _ _)

/-- Update [j, f'] lands on operand element [i, f] exactly when row j's scatter index, read signed, is i and f' = f. -/
theorem resultIdx?_rows2 (huw : d.updateWindowDims = [1]) (hiw : d.insertedWindowDims = [0])
    (hsd : d.scatterDimsToOperandDims = [0]) (hiv : d.indexVectorDim = 1)
    (idx : IVec ⟨2, ![M, 1]⟩ w) (j : (⟨2, ![M, H]⟩ : Shape).Idx) (i : Fin N) (f : Fin H) :
    d.resultIdx? j idx = some (ix2 i f) ↔ (idx (ix2 (j 0) (0 : Fin 1))).toInt = (i.val : Int) ∧ j 1 = f := by
  have hs0 := start0_rows2 d huw hsd hiv idx j
  have hs1 := start1_rows2 d hsd idx j
  have hw0 := window0_rows2 d hiw j
  have hw1 := window1_rows2 d huw hiw j
  have hj1 : (j 1).val < H := (j 1).isLt
  have hi := i.isLt
  have hf := f.isLt
  unfold ScatterDims.resultIdx?
  split
  · next h =>
    have h0 := h 0
    rw [hs0, hw0] at h0
    constructor
    · intro he
      have he' := Option.some.inj he
      have he0 : (d.start j idx 0 + (d.window j 0 : Nat)).toNat = i.val :=
        congrArg (fun g : (⟨2, ![N, H]⟩ : Shape).Idx => (g 0).val) he'
      have he1 : (d.start j idx 1 + (d.window j 1 : Nat)).toNat = f.val :=
        congrArg (fun g : (⟨2, ![N, H]⟩ : Shape).Idx => (g 1).val) he'
      rw [hs0, hw0] at he0
      rw [hs1, hw1] at he1
      exact ⟨by omega, Fin.ext (by omega)⟩
    · intro he
      obtain ⟨hv, hjf⟩ := he
      have hjf' : (j 1).val = f.val := congrArg Fin.val hjf
      refine congrArg some (funext fun a => ?_)
      match a with
      | ⟨0, _⟩ =>
        apply Fin.ext
        show (d.start j idx 0 + (d.window j 0 : Nat)).toNat = i.val
        rw [hs0, hw0]; omega
      | ⟨1, _⟩ =>
        apply Fin.ext
        show (d.start j idx 1 + (d.window j 1 : Nat)).toNat = f.val
        rw [hs1, hw1]; omega
  · next h =>
    constructor
    · intro he; exact absurd he (by simp)
    · intro he
      obtain ⟨hv, hjf⟩ := he
      exfalso; apply h
      intro a
      match a with
      | ⟨0, _⟩ =>
        show (0 : Int) ≤ d.start j idx 0 + (d.window j 0 : Nat) ∧ d.start j idx 0 + (d.window j 0 : Nat) < ((N : Nat) : Int)
        rw [hs0, hw0, hv]; omega
      | ⟨1, _⟩ =>
        show (0 : Int) ≤ d.start j idx 1 + (d.window j 1 : Nat) ∧ d.start j idx 1 + (d.window j 1 : Nat) < ((H : Nat) : Int)
        rw [hs1, hw1]; omega

end Rows2

/-- THE ROW SCATTER OF ROWS. The accumulating scatter of the M rows of an [M × H] array of updates into an [N × H]
    operand, update row j going to the operand row named by scatter index [j, 0] (the operand's row axis inserted and
    start-indexed, the column axis the one window axis, the index vector on axis 1), read at element (i, f): the
    operand's element plus the sum, over the update rows whose scatter index, read signed, is i, of their column f. A
    row whose index is outside [0, N) is no operand row's, so it is dropped. -/
theorem hostScatterAdd_rows2 {N H M w : Nat} (d : ScatterDims ⟨2, ![N, H]⟩ ⟨2, ![M, 1]⟩ ⟨2, ![M, H]⟩)
    (huw : d.updateWindowDims = [1]) (hiw : d.insertedWindowDims = [0]) (hsd : d.scatterDimsToOperandDims = [0]) (hiv : d.indexVectorDim = 1)
    (x : (⟨2, ![N, H]⟩ : Shape).Idx → EReal) (idx : IVec ⟨2, ![M, 1]⟩ w) (upd : (⟨2, ![M, H]⟩ : Shape).Idx → EReal) (i : Fin N) (f : Fin H) :
    Ideal.hostScatterAdd d x idx upd (ix2 i f)
      = x (ix2 i f) + ∑ j : Fin M, if (idx (ix2 j (0 : Fin 1))).toInt = (i.val : Int) then upd (ix2 j f) else 0 := by
  unfold Ideal.hostScatterAdd
  congr 1
  rw [Finset.sum_filter, sum_idx2]
  refine Finset.sum_congr rfl fun j _ => ?_
  have hiff : ∀ b : Fin H, d.resultIdx? (ix2 j b) idx = some (ix2 i f)
      ↔ (idx (ix2 j (0 : Fin 1))).toInt = (i.val : Int) ∧ b = f :=
    fun b => resultIdx?_rows2 d huw hiw hsd hiv idx (ix2 j b) i f
  by_cases hv : (idx (ix2 j (0 : Fin 1))).toInt = (i.val : Int)
  · rw [if_pos hv]
    have hc : ∀ b : Fin H, (if d.resultIdx? (ix2 j b) idx = some (ix2 i f) then upd (ix2 j b) else 0)
        = if b = f then upd (ix2 j b) else 0 :=
      fun b => if_congr ((hiff b).trans ⟨fun h => h.2, fun h => ⟨hv, h⟩⟩) rfl rfl
    rw [Finset.sum_congr rfl (fun b _ => hc b), Finset.sum_ite_eq', if_pos (Finset.mem_univ f)]
  · rw [if_neg hv]
    exact Finset.sum_eq_zero fun b _ => if_neg (fun h => hv ((hiff b).mp h).1)

end Idealize.ShloMosaic.ScatterRows

end
-- ==== Proof.LibSliceSums.lean ====
/-
  Three small general facts, stated for any shapes and extents: a host slice read at an index, a vector viewed as a
  one-row matrix read at an index, and a sum over a range of naturals cut into equal stretches.
-/
import Idealize.ShloMosaic.PureOps.Ideal
import Idealize.ShloMosaic.Lib.ValueIdx
import Idealize.ShloMosaic.Lib.Pipeline.Value
import Mathlib.Algebra.BigOperators.Group.Finset.Basic

noncomputable section

open scoped BigOperators

namespace Cert.LibSliceSums

open Idealize.ShloMosaic Idealize.ShloMosaic.ValueIdx

/-- A slice read at an index j: the operand at the index k whose every coordinate is the slice's offset on that axis
    plus j's coordinate. -/
theorem slice_apply {s t : Shape} {α : Type} (off : Fin s.rank → Nat) (x : s.Idx → α) (h : s.Slices off t) (j : t.Idx)
    (k : s.Idx) (hk : ∀ a, (k a).val = off a + (j (a.cast h.1.symm)).val) : extractStridedSlice t off x h j = x k := by
  unfold extractStridedSlice
  exact congrArg x (funext fun a => Fin.ext (hk a).symm)

/-- A vector of length b viewed as a 1 × b row reads its own entry. -/
theorem shapeCast_row_apply {b : ℕ} {α : Type} (v : (⟨1, ![b]⟩ : Shape).Idx → α)
    (h : (⟨1, ![b]⟩ : Shape).ShapeCasts ⟨2, ![1, b]⟩) (z : Fin 1) (k : Fin b) :
    shapeCast ⟨2, ![1, b]⟩ v h (ix2 z k) = v (ix1 k) :=
  -- both indices have the row-major position k: 0 · b + k on the row side
  shapeCast_apply v h _ _ (by
    have hz : z.val = 0 := by omega
    rw [Shape.rowMajor_val_one, Shape.rowMajor_val_two]
    show k.val = z.val * b + k.val
    rw [hz, Nat.zero_mul, Nat.zero_add])

/-- A sum over a · b consecutive naturals is the sum, over a stretches of length b, of each stretch's sum. -/
theorem sum_range_mul {M : Type} [AddCommMonoid M] (g : ℕ → M) (a b : ℕ) :
    ∑ r ∈ Finset.range (a * b), g r = ∑ n ∈ Finset.range a, ∑ q ∈ Finset.range b, g (n * b + q) := by
  induction a with
  | zero => simp
  | succ a ih => rw [Nat.succ_mul, Finset.sum_range_add, ih, Finset.sum_range_succ]

end Cert.LibSliceSums

end
-- ==== Proof.PoolSpec.lean ====
/-
  Gated linear pooling over graph segments, as one function of the argument arrays.

  Each of the 100000 node rows r carries a gated feature row
      gate r c = (∑ₖ X[r,k] · Wl[k,c] + bl[c]) · σ(∑ₖ X[r,k] · Wa[k,c] + ba[c]),     σ z = 1 / (1 + e^(-z)),
  and segment s pools the gated rows of the nodes whose segment id is s:
      pooled s c = ∑_r [id r = s] · gate r c.
  The sum over the 100000 nodes is cut two ways here: as it stands (one indicator-weighted sum over all nodes), and tile
  by tile — 100 tiles of 1000 consecutive nodes, tile n holding nodes 1000 n … 1000 n + 999, the tiles 0 … 49 summed
  into one half and 50 … 99 into the other, the halves added. Both are the same sum: addition of extended reals is
  commutative and associative, and 0 · x = 0, 1 · x = x for every extended real x, so no finiteness is needed.
-/
import Idealize.ShloMosaic.PureOps.Ideal
import Idealize.ShloMosaic.PureOps.Ideal.Laws
import Idealize.ShloMosaic.Lib.ValueIdx
import Idealize.ShloMosaic.Lib.IdealHost
import Mathlib.Algebra.BigOperators.Group.Finset.Basic
import Mathlib.Algebra.BigOperators.Fin
import proofs.«426610_j515396076388_2_alg».proof.Proof.LibSliceSums

noncomputable section

open scoped BigOperators

namespace Cert.Pool

open Idealize.ShloMosaic Idealize.ShloMosaic.ValueIdx

/-- The node features [100000, 512], a weight matrix [512, 512], a bias [512], the segment ids [100000], the pooled result [1000, 512]. -/
abbrev SX : Shape := ⟨2, ![100000, 512]⟩
abbrev SW : Shape := ⟨2, ![512, 512]⟩
abbrev SB : Shape := ⟨1, ![512]⟩
abbrev SI : Shape := ⟨1, ![100000]⟩
abbrev SO : Shape := ⟨2, ![1000, 512]⟩

/-! ## The segment indicator -/

/-- [id = s] as an extended real: one when the 32-bit id, read signed, is s, else zero. -/
def hot (a : BitVec 32) (s : ℕ) : EReal := if a.toInt = (s : Int) then 1 else 0

/-- A 32-bit word equals the word of a small natural exactly when, read signed, it is that natural. -/
theorem eq_ofNat_iff (a : BitVec 32) (s : ℕ) (hs : s < 1024) : a = BitVec.ofNat 32 s ↔ a.toInt = (s : Int) := by
  have ha := a.isLt
  rw [BitVec.toInt_eq_toNat_cond]
  constructor
  · rintro rfl
    simp only [BitVec.toNat_ofNat]
    have e : s % 2 ^ 32 = s := Nat.mod_eq_of_lt (by omega)
    rw [e]
    split <;> omega
  · intro h
    apply BitVec.eq_of_toNat_eq
    rw [BitVec.toNat_ofNat, Nat.mod_eq_of_lt (by omega)]
    split at h <;> omega

/-- The one-hot entry as the kernel computes it — compare the id with the column number, widen the bit to a word, read
    the word as a number — is the indicator. -/
theorem hot_word (a : BitVec 32) (s : ℕ) (hs : s < 1024) :
    FloatOps.sitofp (F := Ideal) .f32 (BitVec.setWidth 32 (IntOp.cmpi .eq a (BitVec.ofNat 32 s))) = hot a s := by
  have e1 : (BitVec.setWidth 32 (BitVec.ofBool true)).toInt = 1 := by decide
  have e0 : (BitVec.setWidth 32 (BitVec.ofBool false)).toInt = 0 := by decide
  show (((BitVec.setWidth 32 (BitVec.ofBool (a == BitVec.ofNat 32 s))).toInt : ℝ) : EReal) = hot a s
  unfold hot
  by_cases h : a = BitVec.ofNat 32 s
  · rw [if_pos ((eq_ofNat_iff a s hs).mp h)]
    have hb : (a == BitVec.ofNat 32 s) = true := by rw [h]; exact beq_self_eq_true _
    rw [hb, e1, Int.cast_one, EReal.coe_one]
  · rw [if_neg (fun h' => h ((eq_ofNat_iff a s hs).mpr h'))]
    have hb : (a == BitVec.ofNat 32 s) = false := by
      cases hq : (a == BitVec.ofNat 32 s)
      · rfl
      · exact absurd (eq_of_beq hq) h
    rw [hb, e0, Int.cast_zero, EReal.coe_zero]

/-- Weighting by the indicator keeps the term of a matching id and drops the others, whatever the term. -/
theorem hot_mul (a : BitVec 32) (s : ℕ) (x : EReal) : hot a s * x = if a.toInt = (s : Int) then x else 0 := by
  unfold hot
  split
  · exact one_mul x
  · exact zero_mul x

section
variable (X : SX.Idx → EReal) (Wl : SW.Idx → EReal) (bl : SB.Idx → EReal) (Wa : SW.Idx → EReal) (ba : SB.Idx → EReal)
  (ids : SI.Idx → BitVec 32)

/-! ## The gated row and the pooled result -/

/-- Node r's gated feature c: its linear projection times the logistic of its attention logit. -/
def gate (r : Fin 100000) (c : Fin 512) : EReal :=
  ((∑ k : Fin 512, X (ix2 r k) * Wl (ix2 k c)) + bl (ix1 c))
    * Ideal.logistic ((∑ k : Fin 512, X (ix2 r k) * Wa (ix2 k c)) + ba (ix1 c))

/-- Segment (j 0)'s pooled feature (j 1): the gated features of the nodes whose id is the segment's, summed. -/
def pooled : SO.Idx → EReal := fun j =>
  ∑ r : Fin 100000, if (ids (ix1 r)).toInt = ((j 0).val : Int) then gate X Wl bl Wa ba r (j 1) else 0

/-! ## The same sum, tile by tile -/

/-- Node q of tile n (taken modulo the node count, so that it is a node for every n). -/
def rowOf (n : ℕ) (q : Fin 1000) : Fin 100000 := ⟨(n * 1000 + q.val) % 100000, Nat.mod_lt _ (by norm_num)⟩

theorem rowOf_val (n : ℕ) (hn : n < 100) (q : Fin 1000) : (rowOf n q).val = n * 1000 + q.val := by
  have := q.isLt
  exact Nat.mod_eq_of_lt (by omega)

/-- Tile n's contribution to segment s, feature c: its 1000 nodes' gated features, indicator-weighted. -/
def part (n s : ℕ) (c : Fin 512) : EReal :=
  ∑ q : Fin 1000, hot (ids (ix1 (rowOf n q))) s * gate X Wl bl Wa ba (rowOf n q) c

/-- Half h's sum: its 50 tiles' contributions, in tile order. -/
def halfSum (h s : ℕ) (c : Fin 512) : EReal := ∑ u ∈ Finset.range 50, part X Wl bl Wa ba ids (50 * h + u) s c

/-- The two halves together are the pooled result: the 100 tiles of 1000 nodes are all the nodes, each once. -/
theorem halves_eq_pooled (s : Fin 1000) (c : Fin 512) :
    halfSum X Wl bl Wa ba ids 0 s.val c + halfSum X Wl bl Wa ba ids 1 s.val c = pooled X Wl bl Wa ba ids (ix2 s c) := by
  -- one term of the whole sum, as a function of a natural node number
  let T : ℕ → EReal := fun r =>
    hot (ids (ix1 (⟨r % 100000, Nat.mod_lt _ (by norm_num)⟩ : Fin 100000))) s.val
      * gate X Wl bl Wa ba ⟨r % 100000, Nat.mod_lt _ (by norm_num)⟩ c
  have hpart : ∀ n : ℕ, part X Wl bl Wa ba ids n s.val c = ∑ q ∈ Finset.range 1000, T (n * 1000 + q) := fun n => by
    rw [Finset.sum_range]
    rfl
  have hpool : pooled X Wl bl Wa ba ids (ix2 s c) = ∑ r ∈ Finset.range (100 * 1000), T r := by
    show (∑ r : Fin 100000, _) = ∑ r ∈ Finset.range 100000, T r
    rw [Finset.sum_range]
    refine Finset.sum_congr rfl fun r _ => ?_
    have hr : (⟨r.val % 100000, Nat.mod_lt _ (by norm_num)⟩ : Fin 100000) = r := Fin.ext (Nat.mod_eq_of_lt r.isLt)
    show _ = hot (ids (ix1 (⟨r.val % 100000, _⟩ : Fin 100000))) s.val * gate X Wl bl Wa ba ⟨r.val % 100000, _⟩ c
    rw [hr, hot_mul]
  rw [hpool, Cert.LibSliceSums.sum_range_mul, show (100 : ℕ) = 50 + 50 from rfl, Finset.sum_range_add]
  unfold halfSum
  refine congrArg₂ (· + ·) (Finset.sum_congr rfl fun u _ => ?_) (Finset.sum_congr rfl fun u _ => ?_)
  · rw [Nat.mul_zero, Nat.zero_add]; exact hpart u
  · rw [Nat.mul_one]; exact hpart (50 + u)

end

end Cert.Pool

end
-- ==== Proof.PoolRef.lean ====
/-
  The reference program's result, read at an index: it is the pooled gated projection.

  Its update rows are the gated feature rows (two host matrix products with their broadcast biases, the logistic written
  out as 1 / (1 + e^(-z)), the product of the two), and its accumulating row scatter into a zero array adds, at segment
  s, exactly the update rows whose id is s: an id outside 0 … 999 names no row of the result and is dropped.
-/
import proofs.«426610_j515396076388_2_alg».proof.Proof.Gen.ReferenceIdeal.Run
import proofs.«426610_j515396076388_2_alg».proof.Proof.Gen.ReferenceIdeal.Read
import proofs.«426610_j515396076388_2_alg».proof.Proof.LibScatterRows
import proofs.«426610_j515396076388_2_alg».proof.Proof.PoolSpec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Pool

variable (x0 : (⟨S100000x512, .f32⟩ : BufTy).Contents (Elt Ideal)) (x1 : (⟨S100000, .i32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))

/-- Update row r, column f, is node r's gated feature f. -/
theorem updates_apply (r : Fin 100000) (f : Fin 512) :
    val_main_v14 (F := Ideal) x0 x2 x3 x4 x5 (ix2 r f) = gate x0 x2 x3 x4 x5 r f := by
  have el0 : ∀ k : Fin 512, lidx_main_v0 (ix2 r f) k = ix2 r k := fun k => funext fun a =>
    Fin.ext (by match a with | ⟨0, _⟩ => rfl | ⟨1, _⟩ => rfl)
  have er0 : ∀ k : Fin 512, ridx_main_v0 (ix2 r f) k = ix2 k f := fun k => funext fun a =>
    Fin.ext (by match a with | ⟨0, _⟩ => rfl | ⟨1, _⟩ => rfl)
  have el4 : ∀ k : Fin 512, lidx_main_v4 (ix2 r f) k = ix2 r k := fun k => funext fun a =>
    Fin.ext (by match a with | ⟨0, _⟩ => rfl | ⟨1, _⟩ => rfl)
  have er4 : ∀ k : Fin 512, ridx_main_v4 (ix2 r f) k = ix2 k f := fun k => funext fun a =>
    Fin.ext (by match a with | ⟨0, _⟩ => rfl | ⟨1, _⟩ => rfl)
  have eb1 : idx_main_v1 (idx_main_v2 (ix2 r f)) = ix1 f := funext fun a =>
    Fin.ext (by match a with | ⟨0, _⟩ => rfl)
  have eb5 : idx_main_v5 (idx_main_v6 (ix2 r f)) = ix1 f := funext fun a =>
    Fin.ext (by match a with | ⟨0, _⟩ => rfl)
  rw [val_main_v14_apply, val_main_v3_apply, val_main_v0_apply, val_main_v2_apply, val_main_v1_apply,
    val_main_v13_apply, val_main_v12_apply, val_main_cst_0_apply, val_main_v11_apply, val_main_v10_apply,
    val_main_cst_apply, val_main_v9_apply, val_main_v8_apply, val_main_v7_apply, val_main_v4_apply,
    val_main_v6_apply, val_main_v5_apply]
  unfold gate Ideal.logistic
  simp only [el0, er0, el4, er4, eb1, eb5, Ideal.mulf_def, Ideal.addf_def, Ideal.hostDivf_def, Ideal.hostUnary_exp_def,
    Ideal.hostNegf_def, Ideal.negf_def, Ideal.ofBits_def, Ideal.ofBits_one_f32]

/-- The scatter's operand is the zero array. -/
theorem operand_apply (j : S1000x512.Idx) : val_main_v15 (F := Ideal) j = 0 := by
  rw [val_main_v15_apply, val_main_cst_1_apply]
  exact Ideal.ofBits_zero_f32

/-- Scatter index [r, 0] is node r's segment id. -/
theorem ids_apply (r : Fin 100000) : val_main_v16 (F := Ideal) x1 (ix2 r (0 : Fin 1)) = x1 (ix1 r) := by
  rw [val_main_v16_apply]
  exact congrArg x1 (funext fun a => Fin.ext (by match a with | ⟨0, _⟩ => rfl))

/-- The reference's result is the pooled gated projection of its arguments. -/
theorem result_eq : val_main_v17 (F := Ideal) x0 x1 x2 x3 x4 x5 = pooled x0 x2 x3 x4 x5 x1 := by
  funext j
  obtain ⟨s, f, rfl⟩ : ∃ (s : Fin 1000) (f : Fin 512), j = ix2 s f := ⟨j 0, j 1, eq_ix2 j⟩
  unfold val_main_v17
  show Ideal.hostScatterAdd scatter_S1000x512_S100000x1_S100000x512_1_0_0_1 _ _ _ (ix2 s f) = _
  rw [ScatterRows.hostScatterAdd_rows2 scatter_S1000x512_S100000x1_S100000x512_1_0_0_1 rfl rfl rfl rfl, operand_apply,
    zero_add]
  unfold pooled
  refine Finset.sum_congr rfl fun r _ => ?_
  rw [ids_apply, updates_apply]

end Cert.ReferenceIdeal.RefValue

end
-- ==== Proof.PoolPieces.lean ====
/-
  What one grid step leaves in the output block, as a value, for any float instance.

  The kernel body has two control cases. At the first step of a half (the reduction coordinate is 0) it stores the zero
  block, reads it back and stores the step over it: the block ends at  step(tile, 0). At every other step it reads the
  block the step before left and stores the step over it: the block ends at  step(tile, previous). In both cases one
  store covers the whole block, so the block's contents are that store's value, with every load reading a whole
  staging buffer at its contents.
-/
import proofs.«426610_j515396076388_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One step's value from the tile x, the ids iv, the weights and biases, and the block acc it adds into. -/
abbrev stepOf (x : Vec F S1000x512 .f32) (iv : Vec F S1000x1 .i32) (wl : Vec F S512x512 .f32) (bl : Vec F S1x512 .f32)
    (wa : Vec F S512x512 .f32) (ba : Vec F S1x512 .f32) (acc : Vec F S1x1024x512 .f32) : Vec F S1x1024x512 .f32 :=
  k0_pay1 (k0_pay3 x wl wa bl ba iv acc)

/-- A later step of a half: the block ends at the step over what the step before left. -/
theorem out_later (c : Dev nD) (i : grid0.Coords) (arg2 : Memref sig .tc .vmem S1000x512 .f32) (harg2 : arg2.IsWhole) (arg3 : Memref sig .tc .vmem S1000x1 .i32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x1024x512 .f32) (harg8 : arg8.IsWhole) (hc0 : ¬cond0_0 i) (x0 : Vec F S1000x512 .f32) (x1 : Vec F S1000x1 .i32) (x2 : Vec F S512x512 .f32) (x3 : Vec F S1x512 .f32) (x4 : Vec F S512x512 .f32) (x5 : Vec F S1x512 .f32) (xo6 : Vec F S1x1024x512 .f32) :
    out0_B_6 c i arg2 harg2 arg3 harg3 arg4 harg4 arg5 harg5 arg6 harg6 arg7 harg7 arg8 harg8 hc0 x0 x1 x2 x3 x4 x5 xo6 = stepOf x0 x1 x2 x3 x4 x5 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, View.ld_unit_zero (S := S1000x512) hz2, View.ld_unit_zero (S := S512x512) hz2,
    View.ld_unit_zero (S := S1x512) hz2, View.ld_unit_zero (S := S1000x1) hz2, View.ld_unit_zero (S := S1x1024x512) hz3]

/-- The first step of a half: the block ends at the step over the zero block it has just stored. -/
theorem out_first (c : Dev nD) (i : grid0.Coords) (arg2 : Memref sig .tc .vmem S1000x512 .f32) (harg2 : arg2.IsWhole) (arg3 : Memref sig .tc .vmem S1000x1 .i32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S1x1024x512 .f32) (harg8 : arg8.IsWhole) (hc0 : cond0_0 i) (x0 : Vec F S1000x512 .f32) (x1 : Vec F S1000x1 .i32) (x2 : Vec F S512x512 .f32) (x3 : Vec F S1x512 .f32) (x4 : Vec F S512x512 .f32) (x5 : Vec F S1x512 .f32) :
    out0_A_6 c i arg2 harg2 arg3 harg3 arg4 harg4 arg5 harg5 arg6 harg6 arg7 harg7 arg8 harg8 hc0 x0 x1 x2 x3 x4 x5 = stepOf x0 x1 x2 x3 x4 x5 (k0_pay2 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x1024x512) hz3]
  simp only [View.readAt_eq_ld, harg2.read_unread, harg3.read_unread, harg4.read_unread, harg5.read_unread, harg6.read_unread,
    harg7.read_unread, View.readCov_unit_zero (S := S1x1024x512) _ hz3, View.ld_unit_zero (S := S1000x512) hz2,
    View.ld_unit_zero (S := S512x512) hz2, View.ld_unit_zero (S := S1x512) hz2, View.ld_unit_zero (S := S1000x1) hz2]

end Cert.KernelIdeal.Pieces

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.PoolBody.lean ====
/-
  One grid step of the pooling kernel, read at an index, over the extended reals.

  A step holds a tile of 1000 node rows xb, the two weight matrices, the two bias rows, the tile's 1000 segment ids ib
  (a column) and the running [1, 1024, 512] block acc. It forms the tile's gated rows
      g q c = (∑ₖ xb[q,k] · wl[k,c] + bl[0,c]) · σ(∑ₖ xb[q,k] · wa[k,c] + ba[0,c]),
  the one-hot matrix  h q s = [ib[q,0] = s]  over the 1024 segment columns (an id compared with the column number), and
  adds the product of the one-hot matrix's transpose with the gated rows into the block:
      step s c = acc[0,s,c] + ∑_q h q s · g q c.
  Every change of float format is the identity here, the two projections and the segment product are plain sums of
  products, and the logistic is the extended-real one.
-/
import proofs.«426610_j515396076388_2_alg».proof.Proof.Gen.KernelIdeal.Skeleton
import proofs.«426610_j515396076388_2_alg».proof.Proof.LibVecRows
import proofs.«426610_j515396076388_2_alg».proof.Proof.PoolSpec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Cert.Pool

/-! ## Layout: a [1024, 512] matrix as a one-matrix stack, a bias row down the rows -/

/-- A [1024, 512] matrix viewed as the stack [1, 1024, 512] reads (0, s, c) at (s, c). -/
theorem stack_apply {α : Type} (v : S1024x512.Idx → α) (h : S1024x512.ShapeCasts S1x1024x512) (s : Fin 1024) (c : Fin 512) :
    shapeCast S1x1024x512 v h (ix3 (0 : Fin 1) s c) = v (ix2 s c) :=
  shapeCast_apply v h _ _ (by
    rw [Shape.rowMajor_val_two, Shape.rowMajor_val_three]
    show s.val * 512 + c.val = ((0 : ℕ) * 1024 + s.val) * 512 + c.val
    omega)

/-- The stack [1, 1024, 512] viewed as its one matrix reads (s, c) at (0, s, c). -/
theorem unstack_apply {α : Type} (v : S1x1024x512.Idx → α) (h : S1x1024x512.ShapeCasts S1024x512) (s : Fin 1024) (c : Fin 512) :
    shapeCast S1024x512 v h (ix2 s c) = v (ix3 (0 : Fin 1) s c) :=
  shapeCast_apply v h _ _ (by
    rw [Shape.rowMajor_val_two, Shape.rowMajor_val_three]
    show ((0 : ℕ) * 1024 + s.val) * 512 + c.val = s.val * 512 + c.val
    omega)

/-- A [1, 512] row broadcast down 1000 rows reads the row's entry of the column. -/
theorem biasRow_apply {α : Type} (v : S1x512.Idx → α) (h : S1x512.Broadcasts S1000x512) (q : Fin 1000) (c : Fin 512) :
    broadcastTo S1000x512 v h (ix2 q c) = v (ix2 (0 : Fin 1) c) := by
  refine broadcastTo_apply v h (ix2 q c) (ix2 (0 : Fin 1) c) fun ax => ?_
  match ax with
  | ⟨0, _⟩ => rfl
  | ⟨1, _⟩ => rfl

/-! ## The two products -/

/-- The projection's operand indices, axis by axis: rows of the tile against columns of the weights, contracted over
    the 512 features. -/
theorem proj_lhs_0 (i : S1000x512.Idx) (k : dot_S1000x512_S512x512_S1000x512_1_0_0_1_n_n.contr.Idx) :
    (dot_S1000x512_S512x512_S1000x512_1_0_0_1_n_n.lhsIdx i k 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem proj_lhs_1 (i : S1000x512.Idx) (k : dot_S1000x512_S512x512_S1000x512_1_0_0_1_n_n.contr.Idx) :
    (dot_S1000x512_S512x512_S1000x512_1_0_0_1_n_n.lhsIdx i k 1).val = (k ⟨0, by decide⟩).val :=
  dot_S1000x512_S512x512_S1000x512_1_0_0_1_n_n.lhsIdx_val_of_single rfl i k
theorem proj_rhs_0 (i : S1000x512.Idx) (k : dot_S1000x512_S512x512_S1000x512_1_0_0_1_n_n.contr.Idx) :
    (dot_S1000x512_S512x512_S1000x512_1_0_0_1_n_n.rhsIdx i k 0).val = (k ⟨0, by decide⟩).val :=
  dot_S1000x512_S512x512_S1000x512_1_0_0_1_n_n.rhsIdx_val_of_single rfl i k
theorem proj_rhs_1 (i : S1000x512.Idx) (k : dot_S1000x512_S512x512_S1000x512_1_0_0_1_n_n.contr.Idx) :
    (dot_S1000x512_S512x512_S1000x512_1_0_0_1_n_n.rhsIdx i k 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- A projection of the tile, from a zero accumulator, at (q, c): the sum over the 512 features of the node's feature
    times the weight. -/
theorem proj_apply {φ₁ φ₂ : FTy} (x : FVec Ideal S1000x512 φ₁) (w : FVec Ideal S512x512 φ₂) (q : Fin 1000) (c : Fin 512) :
    matmul dot_S1000x512_S512x512_S1000x512_1_0_0_1_n_n none x w (constant (F := Ideal) S1000x512 .f32 0x00000000#32) (ix2 q c)
      = ∑ k : Fin 512, x (ix2 q k) * w (ix2 k c) := by
  refine (Ideal.matmul_constant_zero_apply dot_S1000x512_S512x512_S1000x512_1_0_0_1_n_n none x w (ix2 q c)).trans ?_
  rw [← Equiv.sum_comp (contrEquiv1 dot_S1000x512_S512x512_S1000x512_1_0_0_1_n_n 512 rfl rfl).symm]
  refine Finset.sum_congr rfl fun k _ => ?_
  have hk := contrEquiv1_symm_val dot_S1000x512_S512x512_S1000x512_1_0_0_1_n_n 512 rfl rfl k
  have el : dot_S1000x512_S512x512_S1000x512_1_0_0_1_n_n.lhsIdx (ix2 q c) ((contrEquiv1 dot_S1000x512_S512x512_S1000x512_1_0_0_1_n_n 512 rfl rfl).symm k) = ix2 q k := funext fun a => Fin.ext (by
    match a with
    | ⟨0, _⟩ => exact proj_lhs_0 _ _
    | ⟨1, _⟩ => exact (proj_lhs_1 _ _).trans hk)
  have er : dot_S1000x512_S512x512_S1000x512_1_0_0_1_n_n.rhsIdx (ix2 q c) ((contrEquiv1 dot_S1000x512_S512x512_S1000x512_1_0_0_1_n_n 512 rfl rfl).symm k) = ix2 k c := funext fun a => Fin.ext (by
    match a with
    | ⟨0, _⟩ => exact (proj_rhs_0 _ _).trans hk
    | ⟨1, _⟩ => exact proj_rhs_1 _ _)
  rw [el, er]

/-- The segment product's operand indices, axis by axis: columns of the one-hot matrix against columns of the gated
    rows, contracted over the tile's 1000 nodes (the first axis of both). -/
theorem seg_lhs_0 (i : S1024x512.Idx) (k : dot_S1000x1024_S1000x512_S1024x512_0_0_1_1_n_n.contr.Idx) :
    (dot_S1000x1024_S1000x512_S1024x512_0_0_1_1_n_n.lhsIdx i k 0).val = (k ⟨0, by decide⟩).val :=
  dot_S1000x1024_S1000x512_S1024x512_0_0_1_1_n_n.lhsIdx_val_of_single rfl i k
theorem seg_lhs_1 (i : S1024x512.Idx) (k : dot_S1000x1024_S1000x512_S1024x512_0_0_1_1_n_n.contr.Idx) :
    (dot_S1000x1024_S1000x512_S1024x512_0_0_1_1_n_n.lhsIdx i k 1).val = (i 0).val := by
  unfold DotDims.lhsIdx
  rw [dif_neg (show ¬(1 : Fin S1000x1024.rank) ∈ dot_S1000x1024_S1000x512_S1024x512_0_0_1_1_n_n.lhsBatch by decide), dif_pos (show (1 : Fin S1000x1024.rank) ∈ dot_S1000x1024_S1000x512_S1024x512_0_0_1_1_n_n.lhsNonContracting by decide)]
  rfl
theorem seg_rhs_0 (i : S1024x512.Idx) (k : dot_S1000x1024_S1000x512_S1024x512_0_0_1_1_n_n.contr.Idx) :
    (dot_S1000x1024_S1000x512_S1024x512_0_0_1_1_n_n.rhsIdx i k 0).val = (k ⟨0, by decide⟩).val :=
  dot_S1000x1024_S1000x512_S1024x512_0_0_1_1_n_n.rhsIdx_val_of_single rfl i k
theorem seg_rhs_1 (i : S1024x512.Idx) (k : dot_S1000x1024_S1000x512_S1024x512_0_0_1_1_n_n.contr.Idx) :
    (dot_S1000x1024_S1000x512_S1024x512_0_0_1_1_n_n.rhsIdx i k 1).val = (i 1).val := by
  unfold DotDims.rhsIdx
  rw [dif_neg (show ¬(1 : Fin S1000x512.rank) ∈ dot_S1000x1024_S1000x512_S1024x512_0_0_1_1_n_n.rhsBatch by decide), dif_pos (show (1 : Fin S1000x512.rank) ∈ dot_S1000x1024_S1000x512_S1024x512_0_0_1_1_n_n.rhsNonContracting by decide)]
  rfl

/-- The segment product, from a zero accumulator, at (s, c): the sum over the tile's nodes of the node's one-hot entry
    for segment s times its gated feature c. -/
theorem seg_apply {φ₁ φ₂ : FTy} (h : FVec Ideal S1000x1024 φ₁) (g : FVec Ideal S1000x512 φ₂) (s : Fin 1024) (c : Fin 512) :
    matmul dot_S1000x1024_S1000x512_S1024x512_0_0_1_1_n_n none h g (constant (F := Ideal) S1024x512 .f32 0x00000000#32) (ix2 s c)
      = ∑ q : Fin 1000, h (ix2 q s) * g (ix2 q c) := by
  refine (Ideal.matmul_constant_zero_apply dot_S1000x1024_S1000x512_S1024x512_0_0_1_1_n_n none h g (ix2 s c)).trans ?_
  rw [← Equiv.sum_comp (contrEquiv1 dot_S1000x1024_S1000x512_S1024x512_0_0_1_1_n_n 1000 rfl rfl).symm]
  refine Finset.sum_congr rfl fun q _ => ?_
  have hq := contrEquiv1_symm_val dot_S1000x1024_S1000x512_S1024x512_0_0_1_1_n_n 1000 rfl rfl q
  have el : dot_S1000x1024_S1000x512_S1024x512_0_0_1_1_n_n.lhsIdx (ix2 s c) ((contrEquiv1 dot_S1000x1024_S1000x512_S1024x512_0_0_1_1_n_n 1000 rfl rfl).symm q) = ix2 q s := funext fun a => Fin.ext (by
    match a with
    | ⟨0, _⟩ => exact (seg_lhs_0 _ _).trans hq
    | ⟨1, _⟩ => exact seg_lhs_1 _ _)
  have er : dot_S1000x1024_S1000x512_S1024x512_0_0_1_1_n_n.rhsIdx (ix2 s c) ((contrEquiv1 dot_S1000x1024_S1000x512_S1024x512_0_0_1_1_n_n 1000 rfl rfl).symm q) = ix2 q c := funext fun a => Fin.ext (by
    match a with
    | ⟨0, _⟩ => exact (seg_rhs_0 _ _).trans hq
    | ⟨1, _⟩ => exact seg_rhs_1 _ _)
  rw [el, er]

/-! ## The one-hot entry and the gated row of a tile -/

/-- The one-hot matrix at (q, s): the tile's id q compared with the column number s, as a number: the indicator. -/
theorem onehot_apply (ib : Vec Ideal S1000x1 .i32) (q : Fin 1000) (s : Fin 1024) :
    (sitofp .f32 (extui 32 (cmpi .eq
        (broadcastTo S1000x1024 (shapeCast S1000x1 ib Facts₀.shapeCasts_S1000x1_S1000x1) Facts₀.broadcasts_S1000x1_S1000x1024)
        (iota .tc S1000x1024 32 [1] Facts₀.iota_S1000x1024_d1_w32)) Facts₀.natLt_1_32) : FVec Ideal S1000x1024 .f32) (ix2 q s)
      = hot (ib (ix2 q (0 : Fin 1))) s.val := by
  show FloatOps.sitofp (F := Ideal) .f32 (BitVec.setWidth 32 (IntOp.cmpi .eq
      (broadcastTo S1000x1024 (shapeCast S1000x1 ib Facts₀.shapeCasts_S1000x1_S1000x1) Facts₀.broadcasts_S1000x1_S1000x1024 (ix2 q s))
      (iota .tc S1000x1024 32 [1] Facts₀.iota_S1000x1024_d1_w32 (ix2 q s)))) = _
  rw [Cert.LibVecRows.broadcastTo_col_apply, shapeCast_self, iota_single_apply]
  exact hot_word _ _ s.isLt

/-- A tile's gated feature (q, c): its linear projection plus bias, times the logistic of its logit plus bias. -/
def gateBlk (xb : Vec Ideal S1000x512 .f32) (wl : Vec Ideal S512x512 .f32) (bl : Vec Ideal S1x512 .f32)
    (wa : Vec Ideal S512x512 .f32) (ba : Vec Ideal S1x512 .f32) (q : Fin 1000) (c : Fin 512) : EReal :=
  ((∑ k : Fin 512, xb (ix2 q k) * wl (ix2 k c)) + bl (ix2 (0 : Fin 1) c))
    * Ideal.logistic ((∑ k : Fin 512, xb (ix2 q k) * wa (ix2 k c)) + ba (ix2 (0 : Fin 1) c))

/-! ## The step -/

/-- THE STEP at (0, s, c): the block's entry plus the tile's indicator-weighted gated features. -/
theorem step_apply (xb : Vec Ideal S1000x512 .f32) (wl wa : Vec Ideal S512x512 .f32) (bl ba : Vec Ideal S1x512 .f32)
    (ib : Vec Ideal S1000x1 .i32) (acc : Vec Ideal S1x1024x512 .f32) (s : Fin 1024) (c : Fin 512) :
    k0_pay1 (F := Ideal) (k0_pay3 (F := Ideal) xb wl wa bl ba ib acc) (ix3 (0 : Fin 1) s c)
      = acc (ix3 (0 : Fin 1) s c) + ∑ q : Fin 1000, hot (ib (ix2 q (0 : Fin 1))) s.val * gateBlk xb wl bl wa ba q c := by
  unfold k0_pay1
  rw [stack_apply]
  unfold k0_pay3
  rw [addf_apply, unstack_apply, seg_apply]
  refine congrArg (acc (ix3 (0 : Fin 1) s c) + ·) (Finset.sum_congr rfl fun q _ => ?_)
  rw [truncf_apply, onehot_apply, truncf_apply, mulf_apply, addf_apply, proj_apply, biasRow_apply, shapeCast_self]
  refine congrArg (hot (ib (ix2 q (0 : Fin 1))) s.val * ·) ?_
  show _ * FloatOps.logistic _ = _
  rw [Ideal.logistic_def, addf_apply, proj_apply, biasRow_apply, shapeCast_self]
  rfl

end Cert.KernelIdeal.Body

end
-- ==== Proof.PoolAccum.lean ====
/-
  What the output block holds after each grid point, over the extended reals.

  Grid point n (0 … 99, the reduction coordinate innermost) works on tile n: its input windows hold rows
  1000 n … 1000 n + 999 of the node features and of the id column, and the whole weight matrices and bias rows. So the
  step at point n adds tile n's contribution  part n  to the block, the block having been zeroed at the first point of
  each half (n = 0 and n = 50). By induction on the point, the block after point n holds the contributions of the tiles
  50 (n / 50) … n of its half, summed in tile order.
-/
import proofs.«426610_j515396076388_2_alg».proof.Proof.Gen.KernelIdeal.Frame
import proofs.«426610_j515396076388_2_alg».proof.Proof.PoolPieces
import proofs.«426610_j515396076388_2_alg».proof.Proof.PoolBody
import proofs.«426610_j515396076388_2_alg».proof.Proof.PoolSpec
import proofs.«426610_j515396076388_2_alg».proof.Proof.LibVecRows
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Accum

open Cert.KernelIdeal Cert.KernelIdeal.Gen
open Idealize.ShloMosaic Idealize.ShloMosaic.TcCoe Idealize.SL.Sem Idealize.ShloMosaic.Tactic Idealize.ShloMosaic.StableHlo
open Idealize.ShloMosaic.ValueIdx Cert.Pool

variable (m : (ℓ : Loc nD τ sig) → Buf (Elt Ideal) ℓ)

/-! ## The argument arrays and the windows' blocks, at their literal types -/

/-- The six argument arrays as launched: node features, ids, the two weight matrices, the two biases. -/
abbrev Xa (c : Dev nD) : SX.Idx → EReal := m ((c : Thread nD τ).loc main_arg0)
abbrev ida (c : Dev nD) : SI.Idx → BitVec 32 := m ((c : Thread nD τ).loc main_arg1)
abbrev Wla (c : Dev nD) : SW.Idx → EReal := m ((c : Thread nD τ).loc main_arg2)
abbrev bla (c : Dev nD) : SB.Idx → EReal := m ((c : Thread nD τ).loc main_arg3)
abbrev Waa (c : Dev nD) : SW.Idx → EReal := m ((c : Thread nD τ).loc main_arg4)
abbrev baa (c : Dev nD) : SB.Idx → EReal := m ((c : Thread nD τ).loc main_arg5)

/-- The six input windows' blocks at point t. -/
abbrev xblk (c : Dev nD) (t : Fin cfg0.N) : Vec Ideal S1000x512 .f32 := iblk m c 0 t
abbrev idblk (c : Dev nD) (t : Fin cfg0.N) : Vec Ideal S1000x1 .i32 := iblk m c 1 t
abbrev wlblk (c : Dev nD) (t : Fin cfg0.N) : Vec Ideal S512x512 .f32 := iblk m c 2 t
abbrev blblk (c : Dev nD) (t : Fin cfg0.N) : Vec Ideal S1x512 .f32 := iblk m c 3 t
abbrev wablk (c : Dev nD) (t : Fin cfg0.N) : Vec Ideal S512x512 .f32 := iblk m c 4 t
abbrev bablk (c : Dev nD) (t : Fin cfg0.N) : Vec Ideal S1x512 .f32 := iblk m c 5 t

/-! ## Where each window's block sits -/

/-- The feature and id windows are on row block t at point t; the weight and bias windows never move. -/
theorem idx_tiles : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)
theorem idx_fixed : ∀ t : Fin cfg0.N, win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 :=
  (by decide +kernel : ∀ t : Fin grid0.N, win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0)

/-! ## The host's reshapes before the region -/

/-- The id window's array is the id vector viewed as a column. -/
theorem V_ids (c : Dev nD) :
    (V m c main_v0 : S100000x1.Idx → BitVec 32) = shapeCast S100000x1 (ida m c) Facts₀.shapeCasts_S100000_S100000x1 := by
  show StableHlo.after hostOps0 (fun b => m (c, b)) (Proc.devRef .tc main_v0) = _
  after_results
  rfl

/-- The bias windows' arrays are the bias vectors viewed as rows. -/
theorem V_bl (c : Dev nD) :
    (V m c main_v1 : S1x512.Idx → EReal) = shapeCast S1x512 (bla m c) Facts₀.shapeCasts_S512_S1x512 := by
  show StableHlo.after hostOps0 (fun b => m (c, b)) (Proc.devRef .tc main_v1) = _
  after_results
  rfl
theorem V_ba (c : Dev nD) :
    (V m c main_v2 : S1x512.Idx → EReal) = shapeCast S1x512 (baa m c) Facts₀.shapeCasts_S512_S1x512 := by
  show StableHlo.after hostOps0 (fun b => m (c, b)) (Proc.devRef .tc main_v2) = _
  after_results
  rfl

/-! ## The blocks read off the argument arrays -/

/-- Row q of the feature block at point t is node 1000 t + q's row. -/
theorem x_blk (c : Dev nD) (t : Fin cfg0.N) (q : Fin 1000) (k : Fin 512) :
    xblk m c t (ix2 q k) = Xa m c (ix2 (rowOf t.val q) k) := by
  have hN : t.val < 100 := lt_of_lt_of_eq t.isLt N_0
  have hi := idx_tiles t
  show (((cfg0.win 0).blk t).view.read (Elt Ideal) (V m c (Pipeline.arrRef spec0 0))) (ix2 q k) = _
  rw [View.read_apply]
  show V m c main_arg0 _ = _
  rw [V_main_arg0]
  refine congrArg (m ((c : Thread nD τ).loc main_arg0)) (funext fun a => Fin.ext ?_)
  match a with
  | ⟨0, _⟩ =>
    show win0_0.index t 0 * 1000 + 1 * q.val = (rowOf t.val q).val
    rw [hi.1, rowOf_val _ hN]; omega
  | ⟨1, _⟩ =>
    show win0_0.index t 1 * 512 + 1 * k.val = k.val
    rw [hi.2.1]; omega

/-- Entry q of the id block at point t is node 1000 t + q's id. -/
theorem id_blk (c : Dev nD) (t : Fin cfg0.N) (q : Fin 1000) :
    idblk m c t (ix2 q (0 : Fin 1)) = ida m c (ix1 (rowOf t.val q)) := by
  have hN : t.val < 100 := lt_of_lt_of_eq t.isLt N_0
  have hi := idx_tiles t
  show (((cfg0.win 1).blk t).view.read (Elt Ideal) (V m c (Pipeline.arrRef spec0 1))) (ix2 q (0 : Fin 1)) = _
  rw [View.read_apply]
  show V m c main_v0 _ = _
  rw [V_ids]
  refine Eq.trans (congrArg _ (?_ : _ = ix2 (rowOf t.val q) (0 : Fin 1))) (Cert.LibVecRows.shapeCast_col_apply _ _ _ _)
  funext a
  apply Fin.ext
  match a with
  | ⟨0, _⟩ =>
    show win0_1.index t 0 * 1000 + 1 * q.val = (rowOf t.val q).val
    rw [hi.2.2.1, rowOf_val _ hN]; omega
  | ⟨1, _⟩ =>
    show win0_1.index t 1 * 1 + 1 * 0 = 0
    rw [hi.2.2.2]

/-- The weight blocks are the weight matrices. -/
theorem wl_blk (c : Dev nD) (t : Fin cfg0.N) (k f : Fin 512) : wlblk m c t (ix2 k f) = Wla m c (ix2 k f) := by
  have hi := idx_fixed t
  show (((cfg0.win 2).blk t).view.read (Elt Ideal) (V m c (Pipeline.arrRef spec0 2))) (ix2 k f) = _
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * k.val = k.val; rw [hi.1]; omega
  | ⟨1, _⟩ => show win0_2.index t 1 * 512 + 1 * f.val = f.val; rw [hi.2.1]; omega
theorem wa_blk (c : Dev nD) (t : Fin cfg0.N) (k f : Fin 512) : wablk m c t (ix2 k f) = Waa m c (ix2 k f) := by
  have hi := idx_fixed t
  show (((cfg0.win 4).blk t).view.read (Elt Ideal) (V m c (Pipeline.arrRef spec0 4))) (ix2 k f) = _
  rw [View.read_apply]
  show V m c main_arg4 _ = _
  rw [V_main_arg4]
  refine congrArg (m ((c : Thread nD τ).loc main_arg4)) (funext fun a => Fin.ext ?_)
  match a with
  | ⟨0, _⟩ => show win0_4.index t 0 * 512 + 1 * k.val = k.val; rw [hi.2.2.2.2.1]; omega
  | ⟨1, _⟩ => show win0_4.index t 1 * 512 + 1 * f.val = f.val; rw [hi.2.2.2.2.2.1]; omega

/-- The bias blocks are the bias vectors as rows. -/
theorem bl_blk (c : Dev nD) (t : Fin cfg0.N) (f : Fin 512) : blblk m c t (ix2 (0 : Fin 1) f) = bla m c (ix1 f) := by
  have hi := idx_fixed t
  show (((cfg0.win 3).blk t).view.read (Elt Ideal) (V m c (Pipeline.arrRef spec0 3))) (ix2 (0 : Fin 1) f) = _
  rw [View.read_apply]
  show V m c main_v1 _ = _
  rw [V_bl]
  refine Eq.trans (congrArg _ (?_ : _ = ix2 (0 : Fin 1) f)) (Cert.LibSliceSums.shapeCast_row_apply _ _ _ _)
  funext a
  apply Fin.ext
  match a with
  | ⟨0, _⟩ => show win0_3.index t 0 * 1 + 1 * 0 = 0; rw [hi.2.2.1]
  | ⟨1, _⟩ => show win0_3.index t 1 * 512 + 1 * f.val = f.val; rw [hi.2.2.2.1]; omega
theorem ba_blk (c : Dev nD) (t : Fin cfg0.N) (f : Fin 512) : bablk m c t (ix2 (0 : Fin 1) f) = baa m c (ix1 f) := by
  have hi := idx_fixed t
  show (((cfg0.win 5).blk t).view.read (Elt Ideal) (V m c (Pipeline.arrRef spec0 5))) (ix2 (0 : Fin 1) f) = _
  rw [View.read_apply]
  show V m c main_v2 _ = _
  rw [V_ba]
  refine Eq.trans (congrArg _ (?_ : _ = ix2 (0 : Fin 1) f)) (Cert.LibSliceSums.shapeCast_row_apply _ _ _ _)
  funext a
  apply Fin.ext
  match a with
  | ⟨0, _⟩ => show win0_5.index t 0 * 1 + 1 * 0 = 0; rw [hi.2.2.2.2.2.2.1]
  | ⟨1, _⟩ => show win0_5.index t 1 * 512 + 1 * f.val = f.val; rw [hi.2.2.2.2.2.2.2]; omega

/-! ## One tile's contribution -/

/-- The tile term of the step at point t is tile t's contribution to the pooled sum. -/
theorem tile_eq (c : Dev nD) (t : Fin cfg0.N) (s : ℕ) (f : Fin 512) :
    ∑ q : Fin 1000, hot (idblk m c t (ix2 q (0 : Fin 1))) s
        * Body.gateBlk (xblk m c t) (wlblk m c t) (blblk m c t) (wablk m c t) (bablk m c t) q f
      = part (Xa m c) (Wla m c) (bla m c) (Waa m c) (baa m c) (ida m c) t.val s f := by
  unfold part
  refine Finset.sum_congr rfl fun q _ => ?_
  rw [id_blk]
  refine congrArg (hot (ida m c (ix1 (rowOf t.val q))) s * ·) ?_
  unfold Body.gateBlk gate
  rw [bl_blk, ba_blk]
  simp only [x_blk, wl_blk, wa_blk]

/-- The zero block the first step of a half stores. -/
theorem zero_apply (s : Fin 1024) (f : Fin 512) : k0_pay2 (F := Ideal) (ix3 (0 : Fin 1) s f) = 0 := by
  unfold k0_pay2
  rw [Body.stack_apply]
  exact Ideal.ofBits_zero_f32

/-! ## The block after each point -/

/-- After the first point of a half the block holds that tile's contribution. -/
theorem first_apply (c : Dev nD) (t : Fin cfg0.N) (h0 : t.val % 50 = 0) (s : Fin 1024) (f : Fin 512) :
    outsAt0 m c t.val t.isLt (ix3 (0 : Fin 1) s f) = part (Xa m c) (Wla m c) (bla m c) (Waa m c) (baa m c) (ida m c) t.val s.val f := by
  refine (congrFun (outsAt0_A m c t h0) (ix3 (0 : Fin 1) s f)).trans ?_
  refine (congrFun (Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (idblk m c t) (wlblk m c t) (blblk m c t) (wablk m c t) (bablk m c t))
    (ix3 (0 : Fin 1) s f)).trans ?_
  refine (Body.step_apply (xblk m c t) (wlblk m c t) (wablk m c t) (blblk m c t) (bablk m c t) (idblk m c t)
    (k0_pay2 (F := Ideal)) s f).trans ?_
  rw [zero_apply, zero_add]
  exact tile_eq m c t s.val f

/-- After a later point the block holds what the point before left plus that tile's contribution. -/
theorem later_apply (c : Dev nD) (t : Fin cfg0.N) (h0 : ¬t.val % 50 = 0) (s : Fin 1024) (f : Fin 512) :
    outsAt0 m c t.val t.isLt (ix3 (0 : Fin 1) s f)
      = outsAt0 m c (t.val - 1) (Nat.lt_of_le_of_lt (Nat.sub_le _ _) t.isLt) (ix3 (0 : Fin 1) s f)
        + part (Xa m c) (Wla m c) (bla m c) (Waa m c) (baa m c) (ida m c) t.val s.val f := by
  refine (congrFun (outsAt0_B m c t h0) (ix3 (0 : Fin 1) s f)).trans ?_
  refine (congrFun (Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk m c t) (idblk m c t) (wlblk m c t) (blblk m c t) (wablk m c t) (bablk m c t)
    (outsAt0 m c (t.val - 1) (Nat.lt_of_le_of_lt (Nat.sub_le _ _) t.isLt))) (ix3 (0 : Fin 1) s f)).trans ?_
  refine (Body.step_apply (xblk m c t) (wlblk m c t) (wablk m c t) (blblk m c t) (bablk m c t) (idblk m c t)
    (outsAt0 m c (t.val - 1) (Nat.lt_of_le_of_lt (Nat.sub_le _ _) t.isLt)) s f).trans ?_
  exact congrArg (_ + ·) (tile_eq m c t s.val f)

/-- THE RUNNING SUM: after point n the block holds the contributions of the tiles 50 (n / 50) … n, in tile order. -/
theorem outsAt_apply (c : Dev nD) : ∀ (n : ℕ) (hn : n < cfg0.N) (s : Fin 1024) (f : Fin 512),
    outsAt0 m c n hn (ix3 (0 : Fin 1) s f)
      = ∑ u ∈ Finset.range (n % 50 + 1), part (Xa m c) (Wla m c) (bla m c) (Waa m c) (baa m c) (ida m c) (50 * (n / 50) + u) s.val f := by
  intro n
  induction n with
  | zero =>
    intro hn s f
    refine (first_apply m c ⟨0, hn⟩ rfl s f).trans ?_
    rw [Nat.zero_mod, Nat.zero_div, Nat.zero_add, Finset.sum_range_one]
  | succ k ih =>
    intro hn s f
    by_cases h0 : (k + 1) % 50 = 0
    · refine (first_apply m c ⟨k + 1, hn⟩ h0 s f).trans ?_
      have e : 50 * ((k + 1) / 50) + 0 = k + 1 := by omega
      rw [h0, Nat.zero_add, Finset.sum_range_one, e]
    · refine (later_apply m c ⟨k + 1, hn⟩ h0 s f).trans ?_
      have e1 : (k + 1) % 50 = k % 50 + 1 := by omega
      have e2 : (k + 1) / 50 = k / 50 := by omega
      have e3 : 50 * (k / 50) + (k % 50 + 1) = k + 1 := by omega
      rw [e1, e2, Finset.sum_range_succ, e3]
      exact congrArg (· + _) (ih (Nat.lt_of_succ_lt hn) s f)

end Cert.KernelIdeal.Accum

end
-- ==== Proof.PoolArray.lean ====
/-
  The kernel program's result, over the extended reals: it is the pooled gated projection.

  The region's output array is [2, 1024, 512], one [1024, 512] slab per half of the grid. Slab h is written back
  once, after the last point of its half (points 49 and 99), when the block holds the half's 50 tile contributions:
      slab h s c = ∑_{u < 50} part (50 h + u) s c.
  The two write-backs cover the array. After the region the host adds the two slabs and keeps segments 0 … 999, and
  the two half sums together are the whole pooled sum.
-/
import proofs.«426610_j515396076388_2_alg».proof.Proof.Gen.KernelIdeal.Frame
import proofs.«426610_j515396076388_2_alg».proof.Proof.PoolAccum
import proofs.«426610_j515396076388_2_alg».proof.Proof.PoolBody
import proofs.«426610_j515396076388_2_alg».proof.Proof.PoolSpec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Value

open Cert.KernelIdeal Cert.KernelIdeal.Gen Cert.KernelIdeal.Accum
open Idealize.ShloMosaic Idealize.ShloMosaic.TcCoe Idealize.SL.Sem Idealize.ShloMosaic.Tactic Idealize.ShloMosaic.StableHlo
open Idealize.ShloMosaic.ValueIdx Cert.Pool
open Idealize.ShloMosaic.Pipeline (Dat)

variable (m : (ℓ : Loc nD τ sig) → Buf (Elt Ideal) ℓ) (ρ : Dev nD → PrngReg)

/-! ## The output array: one slab per half -/

/-- The [2, 1024, 512] array the region leaves: slab (i 0) at segment (i 1), feature (i 2), is that half's sum. -/
def slabs (c : Dev nD) : S2x1024x512.Idx → EReal := fun i =>
  halfSum (Xa m c) (Wla m c) (bla m c) (Waa m c) (baa m c) (ida m c) (i 0).val (i 1).val (i 2)

/-- The output window is on slab t / 50 at point t. -/
theorem idx_out : ∀ t : Fin cfg0.N, win0_6.index t 0 = t.val / 50 ∧ win0_6.index t 1 = 0 ∧ win0_6.index t 2 = 0 :=
  (by decide +kernel : ∀ t : Fin grid0.N, win0_6.index t 0 = t.val / 50 ∧ win0_6.index t 1 = 0 ∧ win0_6.index t 2 = 0)

/-- What a write-back writes is its slab of the array: it happens after the last point of a half, when the block holds
    the half's 50 contributions. -/
theorem flushed_eq (c : Dev nD) (t : Fin cfg0.N) (hf : (cfg0.win 6).flush t = true) :
    (dats m 0 c).flushed 6 t = ((cfg0.win 6).blk t).view.read (Elt Ideal) (slabs m c) := by
  have h49 : t.val % 50 = 49 := (flush0_6 t).mp hf
  have hN : t.val < 100 := lt_of_lt_of_eq t.isLt N_0
  obtain ⟨e0, e1, e2⟩ := idx_out t
  show (cfg0.win 6).cut (grid0.coords t) ((dats m 0 c).after 6 t) = _
  rw [after0_6]
  refine funext fun (y : S1x1024x512.Idx) => ?_
  obtain ⟨z, s, f, rfl⟩ : ∃ (z : Fin 1) (s : Fin 1024) (f : Fin 512), y = ix3 z s f := ⟨y 0, y 1, y 2, eq_ix3 y⟩
  obtain rfl : z = 0 := Subsingleton.elim _ _
  rw [View.read_apply]
  refine (outsAt_apply m c t.val t.isLt s f).trans ?_
  have hemb : ((cfg0.win 6).blk t).view.emb (ix3 (0 : Fin 1) s f) = ix3 (⟨t.val / 50, by omega⟩ : Fin 2) s f := by
    funext a
    apply Fin.ext
    match a with
    | ⟨0, _⟩ => show win0_6.index t 0 * 1 + 1 * 0 = t.val / 50; rw [e0]; omega
    | ⟨1, _⟩ => show win0_6.index t 1 * 1024 + 1 * s.val = s.val; rw [e1]; omega
    | ⟨2, _⟩ => show win0_6.index t 2 * 512 + 1 * f.val = f.val; rw [e2]; omega
  rw [hemb, h49]
  rfl

/-- An index of the array is in point t's block iff each coordinate is in the block's range on its axis. -/
theorem mem_slab (t : Fin cfg0.N) (i : S2x1024x512.Idx) :
    i ∈ ((cfg0.win 6).blk t).view.set ↔ ∀ a : Fin 3, win0_6.index t a * S1x1024x512.size a ≤ (i a).val
      ∧ (i a).val < win0_6.index t a * S1x1024x512.size a + S1x1024x512.size a := by
  show i ∈ ((View.whole main_v3).slice (win0_6.rect t)).set ↔ _
  rw [View.set_slice_whole, Rect.mem_set_unit]
  exact Iff.rfl

/-- So the array ends holding the two half sums: slab h is covered by the write-back after point 50 h + 49. -/
theorem final (c : Dev nD) : (dats m 0 c).arrAt 6 cfg0.N = slabs m c :=
  (dats m 0 c).arrAt_eq_of_cover 6 (slabs m c) (flushed_eq m c) fun i => by
    have h0 : (i 0).val < 2 := (i 0).isLt
    have h1 : (i 1).val < 1024 := (i 1).isLt
    have h2 : (i 2).val < 512 := (i 2).isLt
    have hN : cfg0.N = 100 := N_0
    refine ⟨⟨50 * (i 0).val + 49, by omega⟩, (flush0_6 _).mpr (by show (50 * (i 0).val + 49) % 50 = 49; omega), ?_⟩
    obtain ⟨e0, e1, e2⟩ := idx_out ⟨50 * (i 0).val + 49, by omega⟩
    rw [mem_slab]
    intro a
    match a with
    | ⟨0, _⟩ =>
      show win0_6.index _ 0 * 1 ≤ (i 0).val ∧ (i 0).val < win0_6.index _ 0 * 1 + 1
      rw [e0]; show (50 * (i 0).val + 49) / 50 * 1 ≤ (i 0).val ∧ (i 0).val < (50 * (i 0).val + 49) / 50 * 1 + 1; omega
    | ⟨1, _⟩ =>
      show win0_6.index _ 1 * 1024 ≤ (i 1).val ∧ (i 1).val < win0_6.index _ 1 * 1024 + 1024
      rw [e1]; omega
    | ⟨2, _⟩ =>
      show win0_6.index _ 2 * 512 ≤ (i 2).val ∧ (i 2).val < win0_6.index _ 2 * 512 + 512
      rw [e2]; omega

/-! ## The host's lines after the region -/

/-- The lines after the region: the two slabs taken out, added, and the first 1000 segments kept. -/
def tailOf (A : FVec Ideal S2x1024x512 .f32) : FVec Ideal S1000x512 .f32 :=
  extractStridedSlice S1000x512 ![0, 0]
    (addf (F := Ideal)
      (shapeCast S1024x512 (extractStridedSlice S1x1024x512 ![0, 0, 0] A Facts₀.slices_S2x1024x512_S1x1024x512_0_0_0)
        Facts₀.shapeCasts_S1x1024x512_S1024x512)
      (shapeCast S1024x512 (extractStridedSlice S1x1024x512 ![1, 0, 0] A Facts₀.slices_S2x1024x512_S1x1024x512_1_0_0)
        Facts₀.shapeCasts_S1x1024x512_S1024x512))
    Facts₀.slices_S1024x512_S1000x512_0_0

/-- At segment s, feature f, they leave the sum of the two slabs' entries. -/
theorem tail_apply (A : FVec Ideal S2x1024x512 .f32) (s : Fin 1000) (f : Fin 512) :
    tailOf A (ix2 s f) = A (ix3 (0 : Fin 2) (⟨s.val, by omega⟩ : Fin 1024) f) + A (ix3 (1 : Fin 2) (⟨s.val, by omega⟩ : Fin 1024) f) := by
  unfold tailOf
  rw [Cert.LibSliceSums.slice_apply ![0, 0] _ Facts₀.slices_S1024x512_S1000x512_0_0 (ix2 s f) (ix2 (⟨s.val, by omega⟩ : Fin 1024) f) (fun a => by
    match a with
    | ⟨0, _⟩ => show s.val = 0 + s.val; omega
    | ⟨1, _⟩ => show f.val = 0 + f.val; omega)]
  rw [addf_apply, Body.unstack_apply, Body.unstack_apply]
  rw [Cert.LibSliceSums.slice_apply ![0, 0, 0] A Facts₀.slices_S2x1024x512_S1x1024x512_0_0_0 (ix3 (0 : Fin 1) (⟨s.val, by omega⟩ : Fin 1024) f)
      (ix3 (0 : Fin 2) (⟨s.val, by omega⟩ : Fin 1024) f) (fun a => by
    match a with
    | ⟨0, _⟩ => show 0 = 0 + 0; rfl
    | ⟨1, _⟩ => show s.val = 0 + s.val; omega
    | ⟨2, _⟩ => show f.val = 0 + f.val; omega),
    Cert.LibSliceSums.slice_apply ![1, 0, 0] A Facts₀.slices_S2x1024x512_S1x1024x512_1_0_0 (ix3 (0 : Fin 1) (⟨s.val, by omega⟩ : Fin 1024) f)
      (ix3 (1 : Fin 2) (⟨s.val, by omega⟩ : Fin 1024) f) (fun a => by
    match a with
    | ⟨0, _⟩ => show 1 = 1 + 0; rfl
    | ⟨1, _⟩ => show s.val = 0 + s.val; omega
    | ⟨2, _⟩ => show f.val = 0 + f.val; omega)]

/-- The program's result buffer after the lines that follow the region. -/
theorem result_tail (c : Dev nD) :
    Pipeline.afterTail₀ cfgs (dats m) 0 (V0 m) [hostOps1] c main_v9 = tailOf (slabs m c) := by
  have hA : Pipeline.withArrays (cfgs 0).spec c (V0 m c) (fun w => (dats m 0 c).arrAt w (cfgs 0).N) (Proc.devRef .tc main_v3)
      = slabs m c := (Pipeline.withArrays_arr spec0 launch0.win.arr_inj c _ _ 6).trans (final m c)
  unfold Pipeline.afterTail₀
  show StableHlo.after hostOps1 _ (Proc.devRef .tc main_v9) = _
  after_results
  rw [hA]
  rfl

/-- The two slabs added and cut to 1000 segments are the pooled gated projection. -/
theorem tail_slabs (c : Dev nD) : tailOf (slabs m c) = pooled (Xa m c) (Wla m c) (bla m c) (Waa m c) (baa m c) (ida m c) := by
  funext j
  obtain ⟨s, f, rfl⟩ : ∃ (s : Fin 1000) (f : Fin 512), j = ix2 s f := ⟨j 0, j 1, eq_ix2 j⟩
  rw [tail_apply]
  exact halves_eq_pooled (Xa m c) (Wla m c) (bla m c) (Waa m c) (baa m c) (ida m c) s f

/-! ## The run, read -/

/-- Every weakly fair execution of the kernel program terminates with its result at the pooled gated projection of
    the argument arrays, and the arguments unchanged. -/
theorem run : θ_run defs (onTc (τ := τ) (main (F := Ideal))) ⟨m, fun _ => 0, ρ⟩ fun r => ∀ c : Dev nD,
      r.2.mem ((c.tc : Thread nD τ).loc main_v9) = pooled (Xa m c) (Wla m c) (bla m c) (Waa m c) (baa m c) (ida m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans
        ((result_tail m c).trans (tail_slabs m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.Value

end
-- ==== Proof.lean ====
/-
  Gated linear pooling over graph segments: a tiled kernel against its array-level reference, over the extended reals.

  Both programs take node features X [100000, 512], segment ids [100000], two weight matrices [512, 512] and two
  biases [512], and return, for each of 1000 segments s and 512 features c,
      pooled s c = ∑_r [id r = s] · (∑ₖ X[r,k] · Wl[k,c] + bl[c]) · σ(∑ₖ X[r,k] · Wa[k,c] + ba[c]),   σ z = 1 / (1 + e^(-z)).

  The reference forms the gated rows with two host matrix products and scatters them, accumulating, into a zero array
  by segment id; an id outside 0 … 999 names no row and is dropped. The kernel walks 100 tiles of 1000 rows on a
  2 × 50 grid; at each tile it forms the gated rows, multiplies the transpose of a one-hot matrix (id against the
  column numbers 0 … 1023) with them, and adds the product into a block that is zeroed at the first tile of each half
  of the grid and written back after the last; the host then adds the two halves and keeps the first 1000 segments.
  An id outside 0 … 1023 matches no column, and the columns 1000 … 1023 are cut off, so the same ids are dropped.

  Over the extended reals the two are one sum: a change of float format is the identity, each product is a plain sum
  of products, the kernel's logistic is the host's expression, the one-hot entry is 1 or 0 and  1 · x = x,  0 · x = 0
  for every x, and regrouping a finite sum needs only commutativity and associativity of addition. The precondition
  (finite inputs) is not used.

  The three frames: the kernel's two are the generated frame certificates, the reference's is its generated run with the
  result dropped. The idealization rewrote nothing, so preserves is trivial.
-/
import proofs.«426610_j515396076388_2_alg».proof.Defs
import proofs.«426610_j515396076388_2_alg».proof.Proof.Gen.Kernel
import proofs.«426610_j515396076388_2_alg».proof.Proof.Gen.Kernel.Skeleton
import proofs.«426610_j515396076388_2_alg».proof.Proof.Gen.Kernel.Launch
import proofs.«426610_j515396076388_2_alg».proof.Proof.Gen.Kernel.Points
import proofs.«426610_j515396076388_2_alg».proof.Proof.Gen.Kernel.Frame
import proofs.«426610_j515396076388_2_alg».proof.Proof.Gen.KernelIdeal
import proofs.«426610_j515396076388_2_alg».proof.Proof.Gen.KernelIdeal.Skeleton
import proofs.«426610_j515396076388_2_alg».proof.Proof.Gen.KernelIdeal.Launch
import proofs.«426610_j515396076388_2_alg».proof.Proof.Gen.KernelIdeal.Points
import proofs.«426610_j515396076388_2_alg».proof.Proof.Gen.KernelIdeal.Frame
import proofs.«426610_j515396076388_2_alg».proof.Proof.Gen.ReferenceIdeal
import proofs.«426610_j515396076388_2_alg».proof.Proof.Gen.ReferenceIdeal.Run
import proofs.«426610_j515396076388_2_alg».proof.Proof.Gen.ReferenceIdeal.Read
import proofs.«426610_j515396076388_2_alg».proof.Proof.Gen.Pre_finite_inputs
import proofs.«426610_j515396076388_2_alg».proof.Proof.PoolRef
import proofs.«426610_j515396076388_2_alg».proof.Proof.PoolArray
import Idealize.ShloMosaic.Adequacy
import Idealize.ShloMosaic.Init

noncomputable section

namespace Cert.Proof

open Idealize.ShloMosaic Idealize.SL.Sem Cert.Kernel

/-- The word-level kernel runs and keeps its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the pooled gated projection of those arguments:
    the kernel by its run read tile by tile, the reference by its scatter read at an index. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, (hagree c).1, (hagree c).2.1,
    (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
